-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S8192x512 .f32) (main_arg1 : FVec F S512x512 .f32) (main_arg2 : FVec F S512x512 .f32) (main_arg3 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S8192x512 : Shape := ⟨2, ![8192, 512]⟩
abbrev S512x512 : Shape := ⟨2, ![512, 512]⟩
abbrev S_ : Shape := ⟨0, ![]⟩
abbrev S512 : Shape := ⟨1, ![512]⟩
abbrev S1x512 : Shape := ⟨2, ![1, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .bf16⟩
  | .hbm, ⟨5, _⟩ => ⟨S512x512, .bf16⟩
  | .hbm, ⟨6, _⟩ => ⟨S_, .f32⟩
  | .hbm, ⟨7, _⟩ => ⟨S512, .f32⟩
  | .hbm, ⟨8, _⟩ => ⟨S1x512, .f32⟩
  | .hbm, ⟨9, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  reducesTo_S512x512_S512_d0 : S512x512.ReducesTo [0] S512
  h_S_ : 0 < S_.numel
  bcast_S512_S1x512_1 : S512.BroadcastsInDim S1x512 (![1] : Fin 1 → Fin S1x512.rank)
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .f32 = 32 ∨ (Rect.block (s := S8192x512) S1024x512.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S_ : Shape := ⟨0, ![]⟩
abbrev S512 : Shape := ⟨1, ![512]⟩
abbrev S1x512 : Shape := ⟨2, ![1, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S8192x512, .f32⟩
  | .hbm, ⟨12, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  reducesTo_S512x512_S512_d0 : S512x512.ReducesTo [0] S512
  h_S_ : 0 < S_.numel
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.BodyEntry.lean ====
/-
  What the kernel body stores, at one entry of its output block, on the extended reals.

  At a grid point the body holds 1024 rows of `x` (the block `xb`), the two weight matrices whole (`w1`, `w2`)
  and the one row `s` of shape [1, 512] that carries the column sums of the bias. At row `p`, column `q` of the
  block it stores

      (∑ k, (xb p k · xb p k) · w2 k q  +  ∑ k, xb p k · w1 k q)  +  s 0 q.

  Three facts give this. A change of float format is the identity on the extended reals, so the narrowed copy of
  the block is the block and the square taken in the narrow format is the square. A matrix product onto a zero
  accumulator is, at an entry, the plain sum over the contracted axis. And a row repeated down 1024 rows reads,
  at (p, q), the row's entry q.
-/
import proofs.«429393_j8160437862725_3_alg».proof.Proof.Gen.KernelIdeal.Skeleton
import proofs.«429393_j8160437862725_3_alg».proof.Proof.LibPlainDot
import Idealize.ShloMosaic.Lib.Pipeline.Value
import Idealize.ShloMosaic.Lib.ValueIdx
import Idealize.ShloMosaic.PureOps.Ideal.Laws

noncomputable section

namespace Cert.KernelIdeal.BodyEntry

open Cert.KernelIdeal Cert.KernelIdeal.Gen Idealize.ShloMosaic Idealize.ShloMosaic.ValueIdx
open scoped BigOperators

/-- The dimension numbers of the body's two products are those of a plain [1024, 512] · [512, 512] product:
    the left operand's second axis against the right operand's first. -/
theorem dot_eq_plain : dot_S1024x512_S512x512_S1024x512_1_0_0_1_n_n = DotDims.plain 1024 512 512 := rfl

/-- The linear term: the narrowed block times the first weight matrix, at (p, q), is ∑ k, xb p k · w1 k q. -/
theorem lin_apply (xb : FVec Ideal S1024x512 .f32) (w1 : FVec Ideal S512x512 .bf16) (p : Fin 1024) (q : Fin 512) :
    matmul (F := Ideal) dot_S1024x512_S512x512_S1024x512_1_0_0_1_n_n none (truncf (F := Ideal) .bf16 xb bitsLt_bf16_f32)
        (shapeCast S512x512 w1 shapeCasts_S512x512_S512x512) (constant (F := Ideal) S1024x512 .f32 0x00000000#32) (ix2 p q)
      = ∑ k : Fin 512, xb (ix2 p k) * w1 (ix2 k q) := by
  rw [shapeCast_self, dot_eq_plain]
  exact PlainDot.matmul_zero_apply none (truncf (F := Ideal) .bf16 xb bitsLt_bf16_f32) w1 p q

/-- The quadratic term: the square of the narrowed block times the second weight matrix, at (p, q), is
    ∑ k, (xb p k · xb p k) · w2 k q. -/
theorem quad_apply (xb : FVec Ideal S1024x512 .f32) (w2 : FVec Ideal S512x512 .bf16) (p : Fin 1024) (q : Fin 512) :
    matmul (F := Ideal) dot_S1024x512_S512x512_S1024x512_1_0_0_1_n_n none
        (mulf (truncf (F := Ideal) .bf16 xb bitsLt_bf16_f32) (truncf (F := Ideal) .bf16 xb bitsLt_bf16_f32))
        (shapeCast S512x512 w2 shapeCasts_S512x512_S512x512) (constant (F := Ideal) S1024x512 .f32 0x00000000#32) (ix2 p q)
      = ∑ k : Fin 512, (xb (ix2 p k) * xb (ix2 p k)) * w2 (ix2 k q) := by
  rw [shapeCast_self, dot_eq_plain]
  exact PlainDot.matmul_zero_apply none
    (mulf (truncf (F := Ideal) .bf16 xb bitsLt_bf16_f32) (truncf (F := Ideal) .bf16 xb bitsLt_bf16_f32)) w2 p q

/-- The bias row repeated down the block's rows reads, at (p, q), the row's entry q. -/
theorem row_apply (s : FVec Ideal S1x512 .f32) (p : Fin 1024) (q : Fin 512) :
    broadcastTo S1024x512 (shapeCast S1x512 s shapeCasts_S1x512_S1x512) broadcasts_S1x512_S1024x512 (ix2 p q)
      = s (ix2 0 q) := by
  rw [shapeCast_self]
  refine broadcastTo_apply s broadcasts_S1x512_S1024x512 (ix2 p q) (ix2 0 q) (fun a => ?_)
  match a with
  | ⟨0, _⟩ => rfl
  | ⟨1, _⟩ => rfl

/-- The body's stored value at row p, column q of the block. -/
theorem pay_apply (xb : FVec Ideal S1024x512 .f32) (w1 w2 : FVec Ideal S512x512 .bf16) (s : FVec Ideal S1x512 .f32)
    (p : Fin 1024) (q : Fin 512) :
    k0_pay1 (F := Ideal) xb w1 w2 s (ix2 p q)
      = (∑ k : Fin 512, (xb (ix2 p k) * xb (ix2 p k)) * w2 (ix2 k q) + ∑ k : Fin 512, xb (ix2 p k) * w1 (ix2 k q))
        + s (ix2 0 q) :=
  congrArg₂ (· + ·) (congrArg₂ (· + ·) (quad_apply xb w2 p q) (lin_apply xb w1 p q)) (row_apply s p q)

end Cert.KernelIdeal.BodyEntry

end
-- ==== Proof.Staged.lean ====
/-
  What the kernel's input windows find in their arrays when the region is entered.

  Before the region the host narrows the two weight matrices and reduces the bias to its row of column sums.
  On the extended reals narrowing is the identity, so the two staged weight arrays read, entry by entry, as the
  argument matrices; and the staged [1, 512] row reads, at (0, q), the entry q of the host's column-sum vector.
-/
import proofs.«429393_j8160437862725_3_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The host's column sums of the bias argument: the vector both the staged row and the specification read. -/
def colsum (c : Dev nD) : S512.Idx → EReal :=
  Host.reduceAdd (F := Ideal) (m ((c : Thread nD τ).loc main_arg2)) (constant (F := Ideal) S_ .f32 0x00000000#32)
    reducesTo_S512x512_S512_d0 h_S_

/-- The first staged weight array is the narrowing of the first weight argument. -/
theorem V_v0 (c : Dev nD) : (V m c main_v0 : S512x512.Idx → EReal)
    = truncf (F := Ideal) .bf16 (m ((c : Thread nD τ).loc main_arg1)) bitsLt_bf16_f32 := by
  dsimp only [V, hostOps0]; after_results

/-- The second staged weight array is the narrowing of the third argument. -/
theorem V_v1 (c : Dev nD) : (V m c main_v1 : S512x512.Idx → EReal)
    = truncf (F := Ideal) .bf16 (m ((c : Thread nD τ).loc main_arg3)) bitsLt_bf16_f32 := by
  dsimp only [V, hostOps0]; after_results

/-- The staged row is the column-sum vector laid out as a [1, 512] array. -/
theorem V_v3 (c : Dev nD) : (V m c main_v3 : S1x512.Idx → EReal)
    = broadcastInDim S1x512 ![1] bcast_S512_S1x512_1 (colsum m c) := by
  dsimp only [V, hostOps0]; after_results; rfl

/-- Entry by entry the first staged weight array is the first weight argument. -/
theorem V_v0_apply (c : Dev nD) (k q : Fin 512) :
    (V m c main_v0 : S512x512.Idx → EReal) (ix2 k q) = m ((c : Thread nD τ).loc main_arg1) (ix2 k q) := by
  rw [V_v0]; rfl

/-- Entry by entry the second staged weight array is the third argument. -/
theorem V_v1_apply (c : Dev nD) (k q : Fin 512) :
    (V m c main_v1 : S512x512.Idx → EReal) (ix2 k q) = m ((c : Thread nD τ).loc main_arg3) (ix2 k q) := by
  rw [V_v1]; rfl

/-- The staged row at (0, q) is the column sum q. -/
theorem V_v3_apply (c : Dev nD) (q : Fin 512) :
    (V m c main_v3 : S1x512.Idx → EReal) (ix2 0 q) = colsum m c (ix1 q) := by
  rw [V_v3]
  refine broadcastInDim_apply _ bcast_S512_S1x512_1 (colsum m c) (ix2 0 q) (ix1 q) (fun a => ?_)
  match a with
  | ⟨0, _⟩ => rfl

end Cert.KernelIdeal.Staged

end
-- ==== Proof.Spec.lean ====
/-
  The function both programs compute, as one array of extended reals.

  From `x` of shape [8192, 512], two weight matrices `w1`, `w2` of shape [512, 512] and a vector `s` of 512
  column sums, the result at row `b`, column `o` is

      (∑ k, (x b k · x b k) · w2 k o  +  ∑ k, x b k · w1 k o)  +  s o :

  a quadratic term, a linear term, and the column's bias sum, added in that order. The vector `s` is left
  abstract: both programs obtain it from the bias by the same reduction, which is therefore never opened.
-/
import Idealize.ShloMosaic.PureOps.Ideal
import Idealize.ShloMosaic.Lib.ValueIdx

noncomputable section

namespace Cert.QuadLin

open Idealize.ShloMosaic Idealize.ShloMosaic.ValueIdx
open scoped BigOperators

/-- The result at row `b`, column `o`. -/
def entry (x : (⟨2, ![8192, 512]⟩ : Shape).Idx → EReal) (w1 w2 : (⟨2, ![512, 512]⟩ : Shape).Idx → EReal)
    (s : (⟨1, ![512]⟩ : Shape).Idx → EReal) (b : Fin 8192) (o : Fin 512) : EReal :=
  (∑ k : Fin 512, (x (ix2 b k) * x (ix2 b k)) * w2 (ix2 k o) + ∑ k : Fin 512, x (ix2 b k) * w1 (ix2 k o)) + s (ix1 o)

/-- The whole result array. -/
def out (x : (⟨2, ![8192, 512]⟩ : Shape).Idx → EReal) (w1 w2 : (⟨2, ![512, 512]⟩ : Shape).Idx → EReal)
    (s : (⟨1, ![512]⟩ : Shape).Idx → EReal) : (⟨2, ![8192, 512]⟩ : Shape).Idx → EReal :=
  fun i => entry x w1 w2 s (i 0) (i 1)

theorem out_apply (x : (⟨2, ![8192, 512]⟩ : Shape).Idx → EReal) (w1 w2 : (⟨2, ![512, 512]⟩ : Shape).Idx → EReal)
    (s : (⟨1, ![512]⟩ : Shape).Idx → EReal) (b : Fin 8192) (o : Fin 512) :
    out x w1 w2 s (ix2 b o) = entry x w1 w2 s b o := rfl

end Cert.QuadLin

end
-- ==== Proof.Blocks.lean ====
/-
  From the blocks the grid points write to the whole result array.

  The grid has 8 points. Point `t` holds rows 1024·t … 1024·t + 1023 of `x`, both weight arrays whole and the
  whole row of column sums, and writes back rows 1024·t … 1024·t + 1023 of the result. The body's entry (p, q)
  of that block is therefore the specification's entry (1024·t + p, q) of the argument arrays. Row `r` of the
  result lies in the block of point r / 1024, so the eight blocks cover the array, and the array after the run is
  the specified one.
-/
import proofs.«429393_j8160437862725_3_alg».proof.Proof.Gen.KernelIdeal.Value
import proofs.«429393_j8160437862725_3_alg».proof.Proof.BodyEntry
import proofs.«429393_j8160437862725_3_alg».proof.Proof.Staged
import proofs.«429393_j8160437862725_3_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- Every load and the store of the body go through the whole staging buffer: offsets zero on both axes. -/
theorem offs_zero : (![0, 0] : Fin 2 → Nat) = fun _ => 0 := funext fun a => by fin_cases a <;> rfl

/-- The index maps over the grid: the input block of `x` and the output block move with the point along the
    rows; the weight arrays and the row of column sums stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 8 := lt_of_lt_of_eq t.isLt N_0

/-- The array the run leaves: the specification of the argument arrays, the column sums the host's. -/
def result (c : Dev nD) : S8192x512.Idx → EReal :=
  Cert.QuadLin.out (m ((c : Thread nD τ).loc main_arg0)) (m ((c : Thread nD τ).loc main_arg1))
    (m ((c : Thread nD τ).loc main_arg3)) (Staged.colsum m c)

/-- The block of `x` at point `t`, at (p, k), is `x` at row 1024·t + p. -/
theorem xblk_apply (c : Dev nD) (t : Fin cfg0.N) (p : Fin 1024) (k : Fin 512) (h : t.val * 1024 + p.val < 8192) :
    iblk m c 0 t (ix2 p k) = m ((c : Thread nD τ).loc main_arg0) (ix2 ⟨t.val * 1024 + p.val, h⟩ k) := by
  obtain ⟨e0, e1, -⟩ := index_maps t
  rw [← V_main_arg0 m c]
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega

/-- The staged first weight array's block at any point is the first weight argument, whole. -/
theorem w1blk_apply (c : Dev nD) (t : Fin cfg0.N) (k q : Fin 512) :
    iblk m c 1 t (ix2 k q) = m ((c : Thread nD τ).loc main_arg1) (ix2 k q) := by
  obtain ⟨-, -, e0, e1, -⟩ := index_maps t
  rw [← Staged.V_v0_apply m c k q]
  show V m c main_v0 (((cfg0.win 1).blk t).view.emb (ix2 k q)) = V m c main_v0 _
  refine congrArg (V m c main_v0) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- The staged second weight array's block at any point is the third argument, whole. -/
theorem w2blk_apply (c : Dev nD) (t : Fin cfg0.N) (k q : Fin 512) :
    iblk m c 2 t (ix2 k q) = m ((c : Thread nD τ).loc main_arg3) (ix2 k q) := by
  obtain ⟨-, -, -, -, e0, e1, -⟩ := index_maps t
  rw [← Staged.V_v1_apply m c k q]
  show V m c main_v1 (((cfg0.win 2).blk t).view.emb (ix2 k q)) = V m c main_v1 _
  refine congrArg (V m c main_v1) (funext fun a => Fin.ext ?_)
  match a with
  | ⟨0, _⟩ => show win0_2.index t (0 : Fin 2) * 512 + 1 * k.val = k.val; omega
  | ⟨1, _⟩ => show win0_2.index t (1 : Fin 2) * 512 + 1 * q.val = q.val; omega

/-- The staged row's block at any point, at (0, q), is the column sum q. -/
theorem sblk_apply (c : Dev nD) (t : Fin cfg0.N) (q : Fin 512) :
    iblk m c 3 t (ix2 0 q) = Staged.colsum m c (ix1 q) := by
  obtain ⟨-, -, -, -, -, -, e0, e1, -⟩ := index_maps t
  rw [← Staged.V_v3_apply m c q]
  show V m c main_v3 (((cfg0.win 3).blk t).view.emb (ix2 0 q)) = V m c main_v3 _
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 512 + 1 * q.val = q.val; omega

/-- Entry (p, q) of the output block of point `t` is entry (1024·t + p, q) of the array. -/
theorem oblk_emb (t : Fin cfg0.N) (p : Fin 1024) (q : Fin 512) (h : t.val * 1024 + p.val < 8192) :
    ((cfg0.win 4).blk t).view.emb (ix2 p q) = ix2 ⟨t.val * 1024 + p.val, h⟩ q := by
  obtain ⟨-, -, -, -, -, -, -, -, e0, e1⟩ := index_maps t
  refine funext fun a => Fin.ext ?_
  match a with
  | ⟨0, _⟩ => show win0_4.index t (0 : Fin 2) * 1024 + 1 * p.val = t.val * 1024 + p.val; omega
  | ⟨1, _⟩ => show win0_4.index t (1 : Fin 2) * 512 + 1 * q.val = q.val; omega

/-- What point `t` writes back is block `t` of the specified array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero offs_zero]
  simp only [View.ld_unit_zero (S := S1024x512) offs_zero, View.ld_unit_zero (S := S512x512) offs_zero,
    View.ld_unit_zero (S := S1x512) offs_zero]
  funext j
  obtain ⟨p, q, rfl⟩ : ∃ (p : Fin 1024) (q : Fin 512), j = ix2 p q := ⟨j 0, j 1, eq_ix2 j⟩
  have ht := point_lt t
  have hp : t.val * 1024 + p.val < 8192 := by have := p.isLt; omega
  show k0_pay1 (F := Ideal) (iblk m c 0 t) (iblk m c 1 t) (iblk m c 2 t) (iblk m c 3 t) (ix2 p q)
    = result m c (((cfg0.win 4).blk t).view.emb (ix2 p q))
  rw [oblk_emb t p q hp]
  refine (BodyEntry.pay_apply (iblk m c 0 t) (iblk m c 1 t) (iblk m c 2 t) (iblk m c 3 t) p q).trans ?_
  simp only [xblk_apply m c t p _ hp, w1blk_apply m c t, w2blk_apply m c t, sblk_apply m c t]
  rfl

/-- An index of the array is in point `t`'s block iff each coordinate is in the block's range on its axis. -/
theorem mem_blk (t : Fin cfg0.N) (i : S8192x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v4).slice (win0_4.rect t)).set ↔ _
  rw [View.set_slice_whole, Rect.mem_set_unit]
  exact Iff.rfl

/-- Row `r` lies in the block of point r / 1024: the eight blocks cover the array. -/
theorem cover (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  have hN : (i 0).val / 1024 < cfg0.N := by show _ < grid0.N; rw [N_0]; omega
  obtain ⟨-, -, -, -, -, -, -, -, e0, e1⟩ := index_maps ⟨(i 0).val / 1024, hN⟩
  have e0' : win0_4.index ⟨(i 0).val / 1024, hN⟩ (0 : Fin 2) = (i 0).val / 1024 := e0
  refine ⟨⟨(i 0).val / 1024, hN⟩, flush0_4 _, ?_⟩
  rw [mem_blk]
  intro a
  match a with
  | ⟨0, _⟩ =>
    show win0_4.index ⟨(i 0).val / 1024, hN⟩ (0 : Fin 2) * 1024 ≤ (i 0).val
      ∧ (i 0).val < win0_4.index ⟨(i 0).val / 1024, hN⟩ (0 : Fin 2) * 1024 + 1024
    omega
  | ⟨1, _⟩ =>
    show win0_4.index ⟨(i 0).val / 1024, hN⟩ (1 : Fin 2) * 512 ≤ (i 1).val
      ∧ (i 1).val < win0_4.index ⟨(i 0).val / 1024, hN⟩ (1 : Fin 2) * 512 + 512
    omega

/-- The result array after the run is the specified array. -/
theorem final (c : Dev nD) : (dats m 0 c).arrAt 4 cfg0.N = result m c :=
  (dats m 0 c).arrAt_eq_of_cover 4 (result m c) (fun t _ => flushed_eq m c t) cover

/-- The kernel's run: it ends with the result array at the specification and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefSpec.lean ====
/-
  The reference computes the specified array.

  Its last stage adds three arrays entry by entry: the product of the squared input with the second weight matrix,
  the product of the input with the first, and the bias column sums repeated down the rows. Each product reads, at
  (b, o), as the sum over the contracted axis of left (b, k) times right (k, o); the repeated sums read the
  vector at o. Those are the three terms of the specification, in its order.
-/
import proofs.«429393_j8160437862725_3_alg».proof.Proof.Gen.ReferenceIdeal.Read
import proofs.«429393_j8160437862725_3_alg».proof.Proof.Spec

noncomputable section

namespace Cert.ReferenceIdeal.RefSpec

open Cert.ReferenceIdeal Cert.ReferenceIdeal.Gen Cert.ReferenceIdeal.Read Idealize.ShloMosaic Idealize.ShloMosaic.ValueIdx
open scoped BigOperators

/-- The left operand of either product is read at (row of the result, k). -/
theorem lidx1_eq (b : Fin 8192) (o k : Fin 512) : lidx_main_v1 (ix2 b o) k = ix2 b k :=
  funext fun a => Fin.ext (by match a with | ⟨0, _⟩ => rfl | ⟨1, _⟩ => rfl)
theorem lidx2_eq (b : Fin 8192) (o k : Fin 512) : lidx_main_v2 (ix2 b o) k = ix2 b k :=
  funext fun a => Fin.ext (by match a with | ⟨0, _⟩ => rfl | ⟨1, _⟩ => rfl)
/-- The right operand is read at (k, column of the result). -/
theorem ridx1_eq (b : Fin 8192) (o k : Fin 512) : ridx_main_v1 (ix2 b o) k = ix2 k o :=
  funext fun a => Fin.ext (by match a with | ⟨0, _⟩ => rfl | ⟨1, _⟩ => rfl)
theorem ridx2_eq (b : Fin 8192) (o k : Fin 512) : ridx_main_v2 (ix2 b o) k = ix2 k o :=
  funext fun a => Fin.ext (by match a with | ⟨0, _⟩ => rfl | ⟨1, _⟩ => rfl)
/-- The repeated column sums are read at the result's column. -/
theorem sidx_eq (b : Fin 8192) (o : Fin 512) : idx_main_v5 (idx_main_v6 (ix2 b o)) = ix1 o :=
  funext fun a => Fin.ext (by match a with | ⟨0, _⟩ => rfl)

/-- The reference's result is the specified array of its arguments, the column sums being its own reduction of
    the bias. -/
theorem result_eq (x : (⟨S8192x512, .f32⟩ : BufTy).Contents (Elt Ideal)) (w1 bias w2 : (⟨S512x512, .f32⟩ : BufTy).Contents (Elt Ideal)) :
    val_main_v7 (F := Ideal) x w1 bias w2 = Cert.QuadLin.out x w1 w2 (val_main_v4 (F := Ideal) bias) := by
  funext i
  obtain ⟨b, o, rfl⟩ : ∃ (b : Fin 8192) (o : Fin 512), i = ix2 b o := ⟨i 0, i 1, eq_ix2 i⟩
  rw [val_main_v7_apply, val_main_v3_apply, val_main_v1_apply, val_main_v2_apply, val_main_v6_apply, val_main_v5_apply,
    Cert.QuadLin.out_apply]
  simp only [val_main_v0_apply, lidx1_eq, lidx2_eq, ridx1_eq, ridx2_eq, sidx_eq, Ideal.addf_def, Ideal.mulf_def]
  rfl

end Cert.ReferenceIdeal.RefSpec

end
-- ==== Proof.lean ====
/-
  The kernel and its reference compute one array of extended reals.

  For `x` of shape [8192, 512], weight matrices `w1`, `w2` and a bias of shape [512, 512], both programs end with

      out (b, o) = (∑ k, (x b k · x b k) · w2 k o  +  ∑ k, x b k · w1 k o)  +  ∑ d, bias d o .

  The reference forms the three terms as whole arrays on the host. The kernel narrows the weights and reduces the
  bias to its column sums on the host, then walks the rows of `x` in eight blocks of 1024, squaring the narrowed
  block, taking both products onto zero accumulators and adding the row of column sums. On the extended reals
  narrowing is the identity and a product onto a zero accumulator is the plain sum over the contracted axis, so
  each block entry is the specification's entry of the argument arrays (Proof/BodyEntry, Proof/Staged); the eight
  blocks cover the rows (Proof/Blocks); and the reference's stages read as the same three sums (Proof/RefSpec).
  The column sums are the same host reduction of the same bias on both sides and are never opened. No law used
  needs the inputs to be finite: only the order of the two additions is compared, and it is the same.

  The idealized kernel is the kernel's own text read on the extended reals (no operation was rewritten), so that
  conjunct is trivial. The two kernels' frames are the generated ones; the reference's frame is its generated run
  with the result dropped.
-/
import proofs.«429393_j8160437862725_3_alg».proof.Defs
import proofs.«429393_j8160437862725_3_alg».proof.Proof.Gen.Kernel
import proofs.«429393_j8160437862725_3_alg».proof.Proof.Gen.Kernel.Skeleton
import proofs.«429393_j8160437862725_3_alg».proof.Proof.Gen.Kernel.Launch
import proofs.«429393_j8160437862725_3_alg».proof.Proof.Gen.Kernel.Points
import proofs.«429393_j8160437862725_3_alg».proof.Proof.Gen.Kernel.Frame
import proofs.«429393_j8160437862725_3_alg».proof.Proof.Gen.KernelIdeal
import proofs.«429393_j8160437862725_3_alg».proof.Proof.Gen.KernelIdeal.Skeleton
import proofs.«429393_j8160437862725_3_alg».proof.Proof.Gen.KernelIdeal.Launch
import proofs.«429393_j8160437862725_3_alg».proof.Proof.Gen.KernelIdeal.Points
import proofs.«429393_j8160437862725_3_alg».proof.Proof.Gen.KernelIdeal.Frame
import proofs.«429393_j8160437862725_3_alg».proof.Proof.Gen.ReferenceIdeal
import proofs.«429393_j8160437862725_3_alg».proof.Proof.Gen.Pre_finite_inputs
import proofs.«429393_j8160437862725_3_alg».proof.Proof.Gen.KernelIdeal.Value
import proofs.«429393_j8160437862725_3_alg».proof.Proof.Gen.ReferenceIdeal.Run
import proofs.«429393_j8160437862725_3_alg».proof.Proof.Gen.ReferenceIdeal.Read
import proofs.«429393_j8160437862725_3_alg».proof.Proof.Blocks
import proofs.«429393_j8160437862725_3_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end at the specified array of those arguments:
    the kernel by its blocks, the reference stage by stage; the column sums are one reduction of one bias. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefSpec.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
